-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x2048 : Shape := ⟨3, ![2048, 16, 2048]⟩
abbrev S256x2048 : Shape := ⟨2, ![256, 2048]⟩
abbrev S256 : Shape := ⟨1, ![256]⟩
abbrev S_ : Shape := ⟨0, ![]⟩

class Facts : Prop where
  bcast_S_S2048x16x2048 : S_.BroadcastsInDim S2048x16x2048 (![] : Fin 0 → Fin S2048x16x2048.rank)
  reducesTo_S2048x16x2048_S_d0_1_2 : S2048x16x2048.ReducesTo [0, 1, 2] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2048x16x2048 .f32) (main_arg1 : FVec F S256x2048 .f32) (main_arg2 : FVec F S256 .f32) : IVec S_ 1 :=
  let main_v0 : FVec F S2048x16x2048 .f32 := Host.absf main_arg0
  let main_cst : FVec F S_ .f32 := constant S_ .f32 0x7F800000#32
  let main_v1 : FVec F S2048x16x2048 .f32 := broadcastInDim S2048x16x2048 ![] bcast_S_S2048x16x2048 main_cst
  let main_v2 : IVec S2048x16x2048 1 := cmpf .olt main_v0 main_v1
  let main_c : IVec S_ 1 := constantI S_ 1 1#1
  let main_v3 : IVec S_ 1 := (fun x v => Host.reduce IntOp.andi x v reducesTo_S2048x16x2048_S_d0_1_2 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S2048x16x2048 : Shape := ⟨3, ![2048, 16, 2048]⟩
abbrev S256x2048 : Shape := ⟨2, ![256, 2048]⟩
abbrev S256 : Shape := ⟨1, ![256]⟩
abbrev S2048x256 : Shape := ⟨2, ![2048, 256]⟩
abbrev S128x8x2048 : Shape := ⟨3, ![128, 8, 2048]⟩
abbrev S128x256 : Shape := ⟨2, ![128, 256]⟩
abbrev S128x2048 : Shape := ⟨2, ![128, 2048]⟩
abbrev S1x256 : Shape := ⟨2, ![1, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x16x2048, .f32⟩
  | .hbm, ⟨1, _⟩ => ⟨S256x2048, .f32⟩
  | .hbm, ⟨2, _⟩ => ⟨S256, .f32⟩
  | .hbm, ⟨3, _⟩ => ⟨S2048x256, .f32⟩
  | .local _ .vmem, ⟨0, _⟩ => ⟨S128x8x2048, .f32⟩
  | .local _ .vmem, ⟨1, _⟩ => ⟨S128x8x2048, .f32⟩
  | .local _ .vmem, ⟨2, _⟩ => ⟨S256x2048, .f32⟩
  | .local _ .vmem, ⟨3, _⟩ => ⟨S256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S2048x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x8x2048_S128x8x2048_0_0_0 : ∀ a, (![0, 0, 0] : Fin 3 → Nat) a + S128x8x2048.size a ≤ S128x8x2048.size a
  h_S128x8x2048 : 0 < S128x8x2048.numel
  reduces_S128x8x2048_S128x2048 : S128x8x2048.Reduces [1] S128x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  dot_S128x2048_S256x2048_S128x256_1_1_0_0_n_n_wf : DotDims.WF S128x2048 S256x2048 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x2048.size a ≤ S2048x16x2048.size a
  hwx0_0 : ∀ i : grid0.Coords, EltTy.bits .f32 = 32 ∨ (Rect.block (s := S2048x16x2048) S128x8x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S2048x256.size a
  hwx0_3 : ∀ i : grid0.Coords, EltTy.bits .f32 = 32 ∨ (Rect.block (s := S2048x256) S128x256.size (cc0_transform_3 i) (hinb0_3 i)).WholeWords (EltTy.packing .f32)

variable [Facts₀]

def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf

abbrev win0_0 : Pipeline.Window sig grid0 :=
  Pipeline.Window.ofSpec (Memref.whole main_arg0) S128x8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x16x2048 : Shape := ⟨3, ![2048, 16, 2048]⟩
abbrev S256x2048 : Shape := ⟨2, ![256, 2048]⟩
abbrev S256 : Shape := ⟨1, ![256]⟩
abbrev S_ : Shape := ⟨0, ![]⟩
abbrev S2048x2048 : Shape := ⟨2, ![2048, 2048]⟩
abbrev S2048x256 : Shape := ⟨2, ![2048, 256]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x16x2048, .f32⟩
  | .hbm, ⟨1, _⟩ => ⟨S256x2048, .f32⟩
  | .hbm, ⟨2, _⟩ => ⟨S256, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x256, .f32⟩
  | .hbm, ⟨9, _⟩ => ⟨S1x256, .f32⟩
  | .hbm, ⟨10, _⟩ => ⟨S2048x256, .f32⟩
  | .hbm, ⟨11, _⟩ => ⟨S2048x256, .f32⟩
  | _, _ => ⟨S2048x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S2048x16x2048_S2048x2048_d1 : S2048x16x2048.ReducesTo [1] S2048x2048
  h_S_ : 0 < S_.numel
  bcast_S_S2048x2048 : S_.BroadcastsInDim S2048x2048 (![] : Fin 0 → Fin S2048x2048.rank)
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  dot_S2048x2048_S256x2048_S2048x256_1_1_0_0_n_n_wf : DotDims.WF S2048x2048 S256x2048 S2048x256 [1] [1] [0] [0] [] []

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

class Facts : Prop extends Facts₀ where

variable [Facts]
-- ==== Proof.PoolLaw.lean ====
/-
  The mathematics of "average a node's sixteen replicas, project, add the bias", with no program in sight.

  Two arrangements of one function of x : [2048, 16, 2048], W : [256, 2048], b : [256] into [2048, 256]:

  * `meanProject`: out[n, o] = Σ_f ((0 + Σ_{k<16} x[n, k, f]) / 16) · W[o, f] + b[o]
    (mean over the replica axis first, then the linear layer);
  * `chunkedProject`: out[n, o] = ((0 + Σ_f (Σ_{k<8} x[n, k, f]) · W[o, f]) + Σ_f (Σ_{k<8} x[n, 8 + k, f]) · W[o, f]) · (1/16) + b[o]
    (the replica axis cut in two chunks of eight, each chunk summed and projected, the two projections
    accumulated from zero, the factor 1/16 applied once at the end).

  On the extended reals the two agree whenever x and W are finite: then every sum is a real sum, division by 16 is
  the product with 1/16, and the factor moves across the sum over f by distributivity (which is what fails at the
  infinities, and why finiteness is used). The bias is added last on both sides and may be anything.
-/
import Idealize.ShloMosaic.PureOps.Ideal
import Idealize.ShloMosaic.Lib.ValueIdx

noncomputable section

open scoped BigOperators

namespace Cert.PoolLaw

open Idealize.ShloMosaic Idealize.ShloMosaic.ValueIdx

abbrev Sx : Shape := ⟨3, ![2048, 16, 2048]⟩
abbrev Sw : Shape := ⟨2, ![256, 2048]⟩
abbrev Sb : Shape := ⟨1, ![256]⟩
abbrev So : Shape := ⟨2, ![2048, 256]⟩

/-- Replica `k` of the first chunk (replicas 0..7) as a replica of the whole axis. -/
abbrev lo (k : Fin 8) : Fin 16 := ⟨k.val, by omega⟩
/-- Replica `k` of the second chunk (replicas 8..15) as a replica of the whole axis. -/
abbrev hi (k : Fin 8) : Fin 16 := ⟨8 + k.val, by omega⟩

/-- The word `16.0` denotes the real 16. -/
theorem ofBits_sixteen : Ideal.ofBits .f32 0x41800000#32 = ((16 : ℝ) : EReal) := by
  simp [Ideal.ofBits, Ideal.ieee, -EReal.coe_mul]; norm_num

/-- The word `0.0625` denotes the real 1/16 exactly (a power of two). -/
theorem ofBits_sixteenth : Ideal.ofBits .f32 0x3D800000#32 = ((1 / 16 : ℝ) : EReal) := by
  simp [Ideal.ofBits, Ideal.ieee, -EReal.coe_mul]; norm_num

/-- Mean over the replicas, then the linear layer, at output entry (n, o). -/
def meanProjectAt (x : Sx.Idx → EReal) (W : Sw.Idx → EReal) (b : Sb.Idx → EReal) (n : Fin 2048) (o : Fin 256) : EReal :=
  (∑ f : Fin 2048, Ideal.div (0 + ∑ k : Fin 16, x (ix3 n k f)) (Ideal.ofBits .f32 0x41800000#32) * W (ix2 o f)) + b (ix1 o)

/-- One chunk of eight replicas summed and projected: Σ_f (Σ_k x[n, chunk k, f]) · W[o, f]. -/
def chunkDot (x : Sx.Idx → EReal) (W : Sw.Idx → EReal) (chunk : Fin 8 → Fin 16) (n : Fin 2048) (o : Fin 256) : EReal :=
  ∑ f : Fin 2048, (∑ k : Fin 8, x (ix3 n (chunk k) f)) * W (ix2 o f)

/-- The two chunks accumulated from zero, scaled by 1/16, plus the bias, at output entry (n, o). -/
def chunkedProjectAt (x : Sx.Idx → EReal) (W : Sw.Idx → EReal) (b : Sb.Idx → EReal) (n : Fin 2048) (o : Fin 256) : EReal :=
  ((0 + chunkDot x W lo n o) + chunkDot x W hi n o) * Ideal.ofBits .f32 0x3D800000#32 + b (ix1 o)

/-- The whole output array, reference arrangement. -/
def meanProject (x : Sx.Idx → EReal) (W : Sw.Idx → EReal) (b : Sb.Idx → EReal) : So.Idx → EReal :=
  fun j => meanProjectAt x W b (j 0) (j 1)

/-- The whole output array, chunked arrangement. -/
def chunkedProject (x : Sx.Idx → EReal) (W : Sw.Idx → EReal) (b : Sb.Idx → EReal) : So.Idx → EReal :=
  fun j => chunkedProjectAt x W b (j 0) (j 1)

/-- A finite sum of reals, read in the extended reals, is the real sum. -/
theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The sixteen replicas are the first eight and the last eight. -/
theorem sum_sixteen (g : Fin 16 → ℝ) : ∑ k : Fin 16, g k = ∑ k : Fin 8, g (lo k) + ∑ k : Fin 8, g (hi k) :=
  Fin.sum_univ_add (a := 8) (b := 8) (g : Fin (8 + 8) → ℝ)

/-- The law over the reals: accumulate the two chunk projections and scale once, or scale each replica sum and project. -/
theorem real_law (a : Fin 16 → Fin 2048 → ℝ) (w : Fin 2048 → ℝ) :
    ((0 + ∑ f : Fin 2048, (∑ k : Fin 8, a (lo k) f) * w f) + ∑ f : Fin 2048, (∑ k : Fin 8, a (hi k) f) * w f) * (1 / 16)
      = ∑ f : Fin 2048, ((0 + ∑ k : Fin 16, a k f) * (1 / 16)) * w f := by
  rw [zero_add, ← Finset.sum_add_distrib, Finset.sum_mul]
  refine Finset.sum_congr rfl fun f _ => ?_
  rw [zero_add, sum_sixteen (fun k => a k f)]
  ring

/-- On finite x and W the chunked arrangement is the reference's, entry by entry. -/
theorem chunkedProjectAt_eq (x : Sx.Idx → EReal) (W : Sw.Idx → EReal) (b : Sb.Idx → EReal)
    (hx : ∀ i, ∃ r : ℝ, x i = (r : EReal)) (hW : ∀ i, ∃ r : ℝ, W i = (r : EReal)) (n : Fin 2048) (o : Fin 256) :
    chunkedProjectAt x W b n o = meanProjectAt x W b n o := by
  choose xr hxr using hx
  choose wr hwr using hW
  unfold chunkedProjectAt meanProjectAt chunkDot
  congr 1
  simp only [hxr, hwr, ofBits_sixteen, ofBits_sixteenth, Ideal.div_coe (by norm_num : (16 : ℝ) ≠ 0)]
  simp only [coe_sum, ← EReal.coe_mul, ← EReal.coe_add, ← EReal.coe_zero]
  exact congrArg _ (real_law (fun k f => xr (ix3 n k f)) (fun f => wr (ix2 o f)))

/-- On finite x and W the two arrangements are one array. -/
theorem chunkedProject_eq (x : Sx.Idx → EReal) (W : Sw.Idx → EReal) (b : Sb.Idx → EReal)
    (hx : ∀ i, ∃ r : ℝ, x i = (r : EReal)) (hW : ∀ i, ∃ r : ℝ, W i = (r : EReal)) :
    chunkedProject x W b = meanProject x W b :=
  funext fun j => chunkedProjectAt_eq x W b hx hW (j 0) (j 1)

end Cert.PoolLaw

end
-- ==== Proof.RefMean.lean ====
/-
  The reference program's result, read entry by entry, is the "mean, then project" arrangement.

  The reference sums the sixteen replicas of a node's features from 0, divides each sum by the word 16.0, contracts
  the feature axis against W (out[n, o] = Σ_f h[n, f] · W[o, f]) and adds the bias broadcast along the nodes.
  Reading the generated stage lemmas outermost first gives exactly `PoolLaw.meanProjectAt` at (n, o); the only work
  is to name the composed index functions by coordinates.
-/
import proofs.«153412_j75557064671667_1_alg».proof.Proof.Gen.ReferenceIdeal.Read
import proofs.«153412_j75557064671667_1_alg».proof.Proof.PoolLaw

noncomputable section

open scoped BigOperators

namespace Cert.RefMean

open Cert.ReferenceIdeal Cert.ReferenceIdeal.Read Idealize.ShloMosaic Idealize.ShloMosaic.ValueIdx Cert.PoolLaw

/-- The reference's last stage is `meanProject` of its three arguments. -/
theorem stage_eq (x : S2048x16x2048.Idx → EReal) (W : S256x2048.Idx → EReal) (b : S256.Idx → EReal) :
    val_main_v6 (F := Ideal) x W b = meanProject x W b := by
  funext i
  obtain ⟨n, o, rfl⟩ : ∃ (n : Fin 2048) (o : Fin 256), i = ix2 n o := ⟨i 0, i 1, eq_ix2 i⟩
  -- replica k of feature f of node n
  have ex : ∀ (f : Fin 2048) (k : Fin 16), idx_main_v0 (lidx_main_v3 (ix2 n o) f) k = ix3 n k f := fun f k =>
    funext fun a => Fin.ext (by match a with | ⟨0, _⟩ => rfl | ⟨1, _⟩ => rfl | ⟨2, _⟩ => rfl)
  -- row o of W at feature f
  have ew : ∀ f : Fin 2048, ridx_main_v3 (ix2 n o) f = ix2 o f := fun f =>
    funext fun a => Fin.ext (by match a with | ⟨0, _⟩ => rfl | ⟨1, _⟩ => rfl)
  -- the bias at o
  have eb : idx_main_v4 (idx_main_v5 (ix2 n o)) = ix1 o :=
    funext fun a => Fin.ext (by match a with | ⟨0, _⟩ => rfl)
  rw [val_main_v6_apply, val_main_v3_apply, val_main_v5_apply, val_main_v4_apply]
  simp only [val_main_v2_apply, val_main_v0_apply, val_main_v1_apply, val_main_cst_0_apply, val_main_cst_apply,
    ex, ew, eb, Ideal.ofBits_def, Ideal.ofBits_zero_f32, Ideal.hostDivf_def, Ideal.addf_def]
  rfl

end Cert.RefMean

end
-- ==== Proof.KerPieces.lean ====
/-
  What each control case of the kernel body leaves behind, as values (at any float instance).

  The body runs in one of two cases. At a point that opens a node block (replica chunk 0) it stores the zero block
  into the accumulator, reads it back, and stores "accumulator + this chunk's projection": the accumulator ends at the
  update payload applied to the zero block. At a point that closes a node block (replica chunk 1) it adds this
  chunk's projection to what the point before left, and then stores into the output block the finishing payload
  (scale and bias) of the accumulator it has just written. Each statement below reads the stores the run found back
  as one payload: every store and load here is through the whole buffer, so the last store decides the contents and a
  load after a store reads that store's payload.
-/
import proofs.«153412_j75557064671667_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KerPieces

open Cert.KernelIdeal Cert.KernelIdeal.Gen

variable {F : FTy → Type} [FloatOps F]

/-- A rectangle at the origin of a rank-1, rank-2 or rank-3 buffer: all offsets are zero. -/
theorem origin1 : (![0] : Fin 1 → Nat) = fun _ => 0 := funext fun a => by fin_cases a <;> rfl
theorem origin2 : (![0, 0] : Fin 2 → Nat) = fun _ => 0 := funext fun a => by fin_cases a <;> rfl
theorem origin3 : (![0, 0, 0] : Fin 3 → Nat) = fun _ => 0 := funext fun a => by fin_cases a <;> rfl

/-- Opening a node block: the accumulator ends at the update of the ZERO block by this chunk's projection. -/
theorem acc_open (c : Dev nD) (i : grid0.Coords) (arg2 : Memref sig .tc .vmem S128x8x2048 .f32) (harg2 : arg2.IsWhole) (arg3 : Memref sig .tc .vmem S256x2048 .f32) (harg3 : arg3.IsWhole) (arg4 : Memref sig .tc .vmem S256 .f32) (harg4 : arg4.IsWhole) (arg5 : Memref sig .tc .vmem S128x256 .f32) (harg5 : arg5.IsWhole) (arg6 : Memref sig .tc .vmem S128x256 .f32) (harg6 : arg6.IsWhole) (hc0 : cond0_0 i) (hc1 : ¬cond0_1 i)
    (x0 : Vec F S128x8x2048 .f32) (x1 : Vec F S256x2048 .f32) (x2 : Vec F S256 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x256) origin2, View.readCov_unit_zero (S := S128x256) _ origin2]
  simp only [View.readAt_eq_ld, harg2.read_unread, harg3.read_unread,
    View.ld_unit_zero (S := S128x8x2048) origin3, View.ld_unit_zero (S := S256x2048) origin2]

/-- Closing a node block: the accumulator ends at the update of what the point before left (`acc`). -/
theorem acc_close (c : Dev nD) (i : grid0.Coords) (arg2 : Memref sig .tc .vmem S128x8x2048 .f32) (harg2 : arg2.IsWhole) (arg3 : Memref sig .tc .vmem S256x2048 .f32) (harg3 : arg3.IsWhole) (arg4 : Memref sig .tc .vmem S256 .f32) (harg4 : arg4.IsWhole) (arg5 : Memref sig .tc .vmem S128x256 .f32) (harg5 : arg5.IsWhole) (arg6 : Memref sig .tc .vmem S128x256 .f32) (harg6 : arg6.IsWhole) (hc0 : ¬cond0_0 i) (hc1 : cond0_1 i)
    (x0 : Vec F S128x8x2048 .f32) (x1 : Vec F S256x2048 .f32) (x2 : Vec F S256 .f32) (acc : Vec F S128x256 .f32) :
    sout0_B_0 c i arg2 harg2 arg3 harg3 arg4 harg4 arg5 harg5 arg6 harg6 hc0 hc1 x0 x1 x2 acc = k0_pay2 x0 x1 acc := by
  unfold sout0_B_0
  rw [View.read_writes_eq_canon _ _ _ (scover0_B_0 c i arg2 harg2 arg3 harg3 arg4 harg4 arg5 harg5 arg6 harg6 hc0 hc1 x0 x1 x2 acc)]
  unfold kernelRun0_B
  dsimp only
  sl_unfold_words
  rw [View.canon_unit_zero origin2]
  simp only [View.readAt_eq_ld, harg2.read_unread, harg3.read_unread, harg6.read_unread,
    View.ld_unit_zero (S := S128x8x2048) origin3, View.ld_unit_zero (S := S256x2048) origin2,
    View.ld_unit_zero (S := S128x256) origin2]

/-- Closing a node block: the output block is the finishing payload of the accumulator just written, and the bias. -/
theorem out_close (c : Dev nD) (i : grid0.Coords) (arg2 : Memref sig .tc .vmem S128x8x2048 .f32) (harg2 : arg2.IsWhole) (arg3 : Memref sig .tc .vmem S256x2048 .f32) (harg3 : arg3.IsWhole) (arg4 : Memref sig .tc .vmem S256 .f32) (harg4 : arg4.IsWhole) (arg5 : Memref sig .tc .vmem S128x256 .f32) (harg5 : arg5.IsWhole) (arg6 : Memref sig .tc .vmem S128x256 .f32) (harg6 : arg6.IsWhole) (hc0 : ¬cond0_0 i) (hc1 : cond0_1 i)
    (x0 : Vec F S128x8x2048 .f32) (x1 : Vec F S256x2048 .f32) (x2 : Vec F S256 .f32) (acc : Vec F S128x256 .f32) :
    out0_B_3 c i arg2 harg2 arg3 harg3 arg4 harg4 arg5 harg5 arg6 harg6 hc0 hc1 x0 x1 x2 acc = k0_pay3 (k0_pay2 x0 x1 acc) x2 := by
  unfold out0_B_3
  rw [View.read_writes_eq_canon _ _ _ (cover0_B_3 c i arg2 harg2 arg3 harg3 arg4 harg4 arg5 harg5 arg6 harg6 hc0 hc1 x0 x1 x2 acc)]
  unfold kernelRun0_B
  dsimp only
  sl_unfold_words
  rw [View.canon_unit_zero origin2]
  simp only [View.readAt_eq_ld, View.readCov_unit_zero (S := S128x256) _ origin2,
    harg2.read_unread, harg3.read_unread, harg4.read_unread, harg6.read_unread,
    View.ld_unit_zero (S := S128x8x2048) origin3, View.ld_unit_zero (S := S256x2048) origin2,
    View.ld_unit_zero (S := S128x256) origin2, View.ld_unit_zero (S := S256) origin1]

end Cert.KerPieces

end
-- ==== Proof.KerPayload.lean ====
/-
  The kernel body's three payloads read at one entry, on the extended reals.

  * the reset payload is the zero block;
  * the update payload at (r, o) is acc[r, o] + Σ_f (Σ_{k<8} x[r, k, f]) · w[o, f]: the lane sum over the replica axis of
    the block, then the matrix product that contracts the feature axis of both operands (the changes of float format in
    between are the identity on the extended reals, and the product accumulates into a zero block);
  * the finishing payload at (r, o) is acc[r, o] · (the word 0.0625) + b[o]: the bias is cast [256] → [1, 256] and
    broadcast along the 128 rows.
-/
import proofs.«153412_j75557064671667_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerPayload

open Cert.KernelIdeal Cert.KernelIdeal.Gen Idealize.ShloMosaic Idealize.ShloMosaic.ValueIdx

/-- The reset payload: every entry is the word +0.0, the extended real 0. -/
theorem reset_apply (j : S128x256.Idx) : (k0_pay1 (F := Ideal)) j = 0 := by
  unfold k0_pay1
  rw [shapeCast_self]
  exact Ideal.ofBits_zero_f32

/-! ### The matrix product's operand indices at an output entry and a contraction coordinate -/

theorem lhs_row (i : S128x256.Idx) (q : dot_S128x2048_S256x2048_S128x256_1_1_0_0_n_n.contr.Idx) :
    (dot_S128x2048_S256x2048_S128x256_1_1_0_0_n_n.lhsIdx i q 0).val = (i 0).val := by
  unfold DotDims.lhsIdx
  rw [dif_neg (show ¬(0 : Fin S128x2048.rank) ∈ dot_S128x2048_S256x2048_S128x256_1_1_0_0_n_n.lhsBatch by decide), dif_pos (show (0 : Fin S128x2048.rank) ∈ dot_S128x2048_S256x2048_S128x256_1_1_0_0_n_n.lhsNonContracting by decide)]
  rfl
theorem lhs_feat (i : S128x256.Idx) (q : dot_S128x2048_S256x2048_S128x256_1_1_0_0_n_n.contr.Idx) :
    (dot_S128x2048_S256x2048_S128x256_1_1_0_0_n_n.lhsIdx i q 1).val = (q ⟨0, by decide⟩).val :=
  dot_S128x2048_S256x2048_S128x256_1_1_0_0_n_n.lhsIdx_val_of_single rfl i q
theorem rhs_row (i : S128x256.Idx) (q : dot_S128x2048_S256x2048_S128x256_1_1_0_0_n_n.contr.Idx) :
    (dot_S128x2048_S256x2048_S128x256_1_1_0_0_n_n.rhsIdx i q 0).val = (i 1).val := by
  unfold DotDims.rhsIdx
  rw [dif_neg (show ¬(0 : Fin S256x2048.rank) ∈ dot_S128x2048_S256x2048_S128x256_1_1_0_0_n_n.rhsBatch by decide), dif_pos (show (0 : Fin S256x2048.rank) ∈ dot_S128x2048_S256x2048_S128x256_1_1_0_0_n_n.rhsNonContracting by decide)]
  rfl
theorem rhs_feat (i : S128x256.Idx) (q : dot_S128x2048_S256x2048_S128x256_1_1_0_0_n_n.contr.Idx) :
    (dot_S128x2048_S256x2048_S128x256_1_1_0_0_n_n.rhsIdx i q 1).val = (q ⟨0, by decide⟩).val :=
  dot_S128x2048_S256x2048_S128x256_1_1_0_0_n_n.rhsIdx_val_of_single rfl i q

/-- The matrix product into a zero block, at (r, o): the sum over the feature f of l[r, f] · w[o, f]. -/
theorem project_apply (l : FVec Ideal S128x2048 .bf16) (w : FVec Ideal S256x2048 .bf16) (r : Fin 128) (o : Fin 256) :
    matmul dot_S128x2048_S256x2048_S128x256_1_1_0_0_n_n none l w (constant (F := Ideal) S128x256 .f32 0x00000000#32) (ix2 r o)
      = ∑ f : Fin 2048, l (ix2 r f) * w (ix2 o f) := by
  simp only [matmul]
  rw [Ideal.matmul_constant_zero_apply, ← Equiv.sum_comp (contrEquiv1 dot_S128x2048_S256x2048_S128x256_1_1_0_0_n_n 2048 rfl rfl).symm]
  refine Finset.sum_congr rfl fun f _ => ?_
  have hf := contrEquiv1_symm_val dot_S128x2048_S256x2048_S128x256_1_1_0_0_n_n 2048 rfl rfl f
  have el : dot_S128x2048_S256x2048_S128x256_1_1_0_0_n_n.lhsIdx (ix2 r o) ((contrEquiv1 dot_S128x2048_S256x2048_S128x256_1_1_0_0_n_n 2048 rfl rfl).symm f) = ix2 r f := funext fun a => Fin.ext (by
    match a with
    | ⟨0, _⟩ => exact lhs_row _ _
    | ⟨1, _⟩ => exact (lhs_feat _ _).trans hf)
  have er : dot_S128x2048_S256x2048_S128x256_1_1_0_0_n_n.rhsIdx (ix2 r o) ((contrEquiv1 dot_S128x2048_S256x2048_S128x256_1_1_0_0_n_n 2048 rfl rfl).symm f) = ix2 o f := funext fun a => Fin.ext (by
    match a with
    | ⟨0, _⟩ => exact rhs_row _ _
    | ⟨1, _⟩ => exact (rhs_feat _ _).trans hf)
  rw [el, er]

/-- The lane sum over the replica axis of a block, at (r, f): the sum over the eight replicas of x[r, k, f]. -/
theorem replicaSum_apply (x : FVec Ideal S128x8x2048 .f32) (r : Fin 128) (f : Fin 2048) :
    multiReduction .add [1] S128x2048 x 0x00000000#32 reduces_S128x8x2048_S128x2048 (.inl rfl) rfl (ix2 r f)
      = ∑ k : Fin 8, x (ix3 r k f) := by
  refine (Ideal.multiReduction_add_single x 0x00000000#32 reduces_S128x8x2048_S128x2048 (.inl rfl) rfl (ix2 r f)).trans ?_
  refine Finset.sum_congr rfl fun k _ => congrArg x (funext fun a => Fin.ext ?_)
  match a with
  | ⟨0, _⟩ => rfl
  | ⟨1, _⟩ => rfl
  | ⟨2, _⟩ => rfl

/-- The update payload at (r, o). -/
theorem update_apply (x : FVec Ideal S128x8x2048 .f32) (w : FVec Ideal S256x2048 .f32) (acc : FVec Ideal S128x256 .f32)
    (r : Fin 128) (o : Fin 256) :
    k0_pay2 (F := Ideal) x w acc (ix2 r o) = acc (ix2 r o) + ∑ f : Fin 2048, (∑ k : Fin 8, x (ix3 r k f)) * w (ix2 o f) := by
  unfold k0_pay2
  dsimp only
  rw [shapeCast_self]
  refine congrArg (acc (ix2 r o) + ·) ?_
  refine (project_apply _ _ r o).trans ?_
  refine Finset.sum_congr rfl fun f _ => ?_
  exact congrArg (· * w (ix2 o f)) (replicaSum_apply x r f)

/-- The finishing payload at (r, o). -/
theorem finish_apply (acc : FVec Ideal S128x256 .f32) (b : FVec Ideal S256 .f32) (r : Fin 128) (o : Fin 256) :
    k0_pay3 (F := Ideal) acc b (ix2 r o) = acc (ix2 r o) * Ideal.ofBits .f32 0x3D800000#32 + b (ix1 o) := by
  unfold k0_pay3
  refine congrArg (acc (ix2 r o) * Ideal.ofBits .f32 0x3D800000#32 + ·) ?_
  refine (broadcastTo_1b_ab_apply _ broadcasts_S1x256_S128x256 r o).trans ?_
  exact shapeCast_a_1a_apply b shapeCasts_S256_S1x256 (0 : Fin 1) o

end Cert.KerPayload

end
-- ==== Proof.KerValue.lean ====
/-
  The kernel's output array after its run is the chunked arrangement of its three arguments.

  The grid is 16 node blocks by 2 replica chunks, walked row-major: point t works on nodes 128·(t/2) … 128·(t/2)+127 and
  on replicas 8·(t%2) … 8·(t%2)+7, with all of W and b. An even point opens a node block: the accumulator becomes
  0 + (chunk 0's projection). The odd point after it closes the block: the accumulator becomes that plus chunk 1's
  projection, and the output block is the accumulator times the word 0.0625 plus the bias. Only odd points write their
  block back, block t/2 of the 16 row blocks of the output, and those 16 blocks tile the [2048, 256] array. So no
  induction over the grid is needed: a closing point reads exactly the opening point before it.
-/
import proofs.«153412_j75557064671667_1_alg».proof.Proof.Gen.KernelIdeal.Value
import proofs.«153412_j75557064671667_1_alg».proof.Proof.KerPieces
import proofs.«153412_j75557064671667_1_alg».proof.Proof.KerPayload
import proofs.«153412_j75557064671667_1_alg».proof.Proof.PoolLaw

noncomputable section

open scoped BigOperators
open Idealize.ShloMosaic Idealize.ShloMosaic.TcCoe Idealize.SL.Sem
open Idealize.ShloMosaic.Pipeline (Dat)

namespace Cert.KerValue

open Cert.KernelIdeal Cert.KernelIdeal.Gen Cert.KernelIdeal.Value Idealize.ShloMosaic.ValueIdx
open Cert.PoolLaw Cert.KerPieces Cert.KerPayload

variable (m : (ℓ : Loc nD τ sig) → Buf (Elt Ideal) ℓ) (ρ : Dev nD → PrngReg)

/-- The three argument arrays as the region finds them, and the blocks of them a grid point is handed. -/
abbrev xArr (c : Dev nD) : FVec Ideal S2048x16x2048 .f32 := V m c main_arg0
abbrev wArr (c : Dev nD) : FVec Ideal S256x2048 .f32 := V m c main_arg1
abbrev bArr (c : Dev nD) : FVec Ideal S256 .f32 := V m c main_arg2
abbrev xBlk (c : Dev nD) (t : Fin cfg0.N) : FVec Ideal S128x8x2048 .f32 := iblk m c 0 t
abbrev wBlk (c : Dev nD) (t : Fin cfg0.N) : FVec Ideal S256x2048 .f32 := iblk m c 1 t
abbrev bBlk (c : Dev nD) (t : Fin cfg0.N) : FVec Ideal S256 .f32 := iblk m c 2 t

/-- The printed index maps over the grid: point t is node block t/2, replica chunk t%2; W and b are one block. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val / 2 ∧ win0_3.index t (1 : Fin 2) = 0 :=
  (by decide +kernel : ∀ t : Fin grid0.N, _)

/-- Row r, replica k, feature f of point t's block of x is node 128·(t/2)+r, replica 8·(t%2)+k, feature f of x. -/
theorem xBlk_apply (c : Dev nD) (t : Fin cfg0.N) (r : Fin 128) (k : Fin 8) (f : Fin 2048) (n : Fin 2048) (kk : Fin 16)
    (hn : n.val = (t.val / 2) * 128 + r.val) (hk : kk.val = (t.val % 2) * 8 + k.val) :
    xBlk m c t (ix3 r k f) = xArr m c (ix3 n kk f) := by
  obtain ⟨e0, e1, e2, -⟩ := idx_facts t
  show V m c main_arg0 (((cfg0.win 0).blk t).view.emb (ix3 r k f)) = V m c main_arg0 (ix3 n kk f)
  refine congrArg _ (funext fun a => Fin.ext ?_)
  match a with
  | ⟨0, _⟩ => show win0_0.index t (0 : Fin 3) * 128 + 1 * r.val = n.val; omega
  | ⟨1, _⟩ => show win0_0.index t (1 : Fin 3) * 8 + 1 * k.val = kk.val; omega
  | ⟨2, _⟩ => show win0_0.index t (2 : Fin 3) * 2048 + 1 * f.val = f.val; omega

/-- Every point's block of W is W. -/
theorem wBlk_apply (c : Dev nD) (t : Fin cfg0.N) (o : Fin 256) (f : Fin 2048) : wBlk m c t (ix2 o f) = wArr m c (ix2 o f) := by
  obtain ⟨-, -, -, e0, e1, -⟩ := idx_facts t
  show V m c main_arg1 (((cfg0.win 1).blk t).view.emb (ix2 o f)) = V m c main_arg1 (ix2 o f)
  refine congrArg _ (funext fun a => Fin.ext ?_)
  match a with
  | ⟨0, _⟩ => show win0_1.index t (0 : Fin 2) * 256 + 1 * o.val = o.val; omega
  | ⟨1, _⟩ => show win0_1.index t (1 : Fin 2) * 2048 + 1 * f.val = f.val; omega

/-- Every point's block of b is b. -/
theorem bBlk_apply (c : Dev nD) (t : Fin cfg0.N) (o : Fin 256) : bBlk m c t (ix1 o) = bArr m c (ix1 o) := by
  obtain ⟨-, -, -, -, -, e, -⟩ := idx_facts t
  show V m c main_arg2 (((cfg0.win 2).blk t).view.emb (ix1 o)) = V m c main_arg2 (ix1 o)
  refine congrArg _ (funext fun a => Fin.ext ?_)
  match a with
  | ⟨0, _⟩ => show win0_2.index t (0 : Fin 1) * 256 + 1 * o.val = o.val; omega

/-- A point's projection of its block, Σ_f (Σ_k x-block[r, k, f]) · W-block[o, f], is the projection of the replica
    chunk it works on, at the node its row r is. -/
theorem blockDot_eq (c : Dev nD) (t : Fin cfg0.N) (r : Fin 128) (o : Fin 256) (n : Fin 2048) (chunk : Fin 8 → Fin 16)
    (hn : n.val = (t.val / 2) * 128 + r.val) (hk : ∀ k, (chunk k).val = (t.val % 2) * 8 + k.val) :
    ∑ f : Fin 2048, (∑ k : Fin 8, xBlk m c t (ix3 r k f)) * wBlk m c t (ix2 o f)
      = chunkDot (xArr m c) (wArr m c) chunk n o := by
  unfold chunkDot
  refine Finset.sum_congr rfl fun f _ => ?_
  rw [wBlk_apply m c t o f]
  exact congrArg (· * wArr m c (ix2 o f)) (Finset.sum_congr rfl fun k _ => xBlk_apply m c t r k f n (chunk k) hn (hk k))

/-- After a point that opens a node block, the accumulator at (r, o) is 0 plus that point's projection. -/
theorem openBlock_apply (c : Dev nD) (s : Fin cfg0.N) (h0 : s.val % 2 = 0) (h1 : ¬s.val % 2 = 1) (r : Fin 128) (o : Fin 256) :
    (outsAt0 m c s.val s.isLt).2 (ix2 r o)
      = 0 + ∑ f : Fin 2048, (∑ k : Fin 8, xBlk m c s (ix3 r k f)) * wBlk m c s (ix2 o f) := by
  rw [outsAt0_A m c s h0 h1]
  dsimp only
  refine (congrFun (acc_open (F := Ideal) c (grid0.coords s) (ms0_0 s) (hs0_0 s) (ms0_1 s) (hs0_1 s) (ms0_2 s) (hs0_2 s) (ms0_3 s) (hs0_3 s) scM0_0 (Memref.isWhole_whole _) ((hcond0_0 s).mpr h0) (fun h => h1 ((hcond0_1 s).mp h)) (xBlk m c s) (wBlk m c s) (bBlk m c s)) (ix2 r o)).trans ?_
  refine (update_apply (xBlk m c s) (wBlk m c s) (k0_pay1 (F := Ideal)) r o).trans ?_
  rw [reset_apply]

/-- After a point that closes a node block, the output block at (r, o) is the chunked arrangement at (node, o). -/
theorem closeBlock_apply (c : Dev nD) (t : Fin cfg0.N) (h0 : ¬t.val % 2 = 0) (h1 : t.val % 2 = 1) (r : Fin 128) (o : Fin 256)
    (n : Fin 2048) (hn : n.val = (t.val / 2) * 128 + r.val) :
    (outsAt0 m c t.val t.isLt).1 (ix2 r o) = chunkedProjectAt (xArr m c) (wArr m c) (bArr m c) n o := by
  have hN : t.val < 32 := lt_of_lt_of_eq t.isLt N_0
  have hs : t.val - 1 < cfg0.N := Nat.lt_of_le_of_lt (Nat.sub_le _ _) t.isLt
  rw [outsAt0_B m c t h0 h1]
  dsimp only
  refine (congrFun (out_close (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xBlk m c t) (wBlk m c t) (bBlk m c t) (outsAt0 m c (t.val - 1) hs).2) (ix2 r o)).trans ?_
  refine (finish_apply (k0_pay2 (F := Ideal) (xBlk m c t) (wBlk m c t) (outsAt0 m c (t.val - 1) hs).2) (bBlk m c t) r o).trans ?_
  have hacc : k0_pay2 (F := Ideal) (xBlk m c t) (wBlk m c t) (outsAt0 m c (t.val - 1) hs).2 (ix2 r o)
      = (0 + chunkDot (xArr m c) (wArr m c) lo n o) + chunkDot (xArr m c) (wArr m c) hi n o := by
    refine (update_apply (xBlk m c t) (wBlk m c t) (outsAt0 m c (t.val - 1) hs).2 r o).trans ?_
    rw [blockDot_eq m c t r o n hi hn (fun k => by show 8 + k.val = (t.val % 2) * 8 + k.val; omega)]
    refine congrArg (· + chunkDot (xArr m c) (wArr m c) hi n o) ?_
    refine (openBlock_apply m c ⟨t.val - 1, hs⟩ (by show (t.val - 1) % 2 = 0; omega) (by show ¬(t.val - 1) % 2 = 1; omega) r o).trans ?_
    rw [blockDot_eq m c ⟨t.val - 1, hs⟩ r o n lo (by show n.val = ((t.val - 1) / 2) * 128 + r.val; omega)
      (fun k => by show k.val = ((t.val - 1) % 2) * 8 + k.val; omega)]
  rw [hacc, bBlk_apply m c t o]
  rfl

/-- Point t's output block, read entry by entry, is the chunked arrangement read through the block's place in the array. -/
theorem closeBlock_read (c : Dev nD) (t : Fin cfg0.N) (h0 : ¬t.val % 2 = 0) (h1 : t.val % 2 = 1) (y : S128x256.Idx) :
    (outsAt0 m c t.val t.isLt).1 y
      = chunkedProject (xArr m c) (wArr m c) (bArr m c) (((cfg0.win 3).blk t).view.emb y) := by
  obtain ⟨r, o, rfl⟩ : ∃ (r : Fin 128) (o : Fin 256), y = ix2 r o := ⟨y 0, y 1, eq_ix2 y⟩
  obtain ⟨-, -, -, -, -, -, e0, e1⟩ := idx_facts t
  have hN : t.val < 32 := lt_of_lt_of_eq t.isLt N_0
  have hemb : ((cfg0.win 3).blk t).view.emb (ix2 r o) = ix2 (⟨(t.val / 2) * 128 + r.val, by omega⟩ : Fin 2048) o :=
    funext fun a => Fin.ext (by
      match a with
      | ⟨0, _⟩ => show win0_3.index t (0 : Fin 2) * 128 + 1 * r.val = (t.val / 2) * 128 + r.val; omega
      | ⟨1, _⟩ => show win0_3.index t (1 : Fin 2) * 256 + 1 * o.val = o.val; omega)
  rw [hemb]
  exact closeBlock_apply m c t h0 h1 r o _ rfl

/-- WHAT A WRITING POINT WRITES BACK is its block of the chunked arrangement of the arguments. -/
theorem flushed_eq (c : Dev nD) (t : Fin cfg0.N) (hf : (cfg0.win 3).flush t = true) :
    (dats m 0 c).flushed 3 t
      = ((cfg0.win 3).blk t).view.read (Elt Ideal) (chunkedProject (xArr m c) (wArr m c) (bArr m c)) := by
  have h1 : t.val % 2 = 1 := (flush0_3 t).mp hf
  have h0 : ¬t.val % 2 = 0 := by omega
  rw [flushed3]
  exact funext fun y => closeBlock_read m c t h0 h1 y

/-- An entry of the output array is in point t's block iff each coordinate is in the block's range on its axis. -/
theorem mem_outBlock (t : Fin cfg0.N) (i : S2048x256.Idx) :
    i ∈ ((cfg0.win 3).blk t).view.set ↔ ∀ a : Fin 2, win0_3.index t a * S128x256.size a ≤ (i a).val ∧ (i a).val < win0_3.index t a * S128x256.size a + S128x256.size a := by
  show i ∈ ((View.whole main_v0).slice (win0_3.rect t)).set ↔ _
  rw [View.set_slice_whole, Rect.mem_set_unit]
  exact Iff.rfl

/-- Every entry (n, o) of the output is written back by the point that closes n's node block: t = 2·(n/128) + 1. -/
theorem covered (i : S2048x256.Idx) : ∃ t : Fin cfg0.N, (cfg0.win 3).flush t = true ∧ i ∈ ((cfg0.win 3).blk t).view.set := by
  have hi0 : (i 0).val < 2048 := (i 0).isLt
  have hi1 : (i 1).val < 256 := (i 1).isLt
  refine ⟨⟨2 * ((i 0).val / 128) + 1, lt_of_lt_of_eq (by omega : 2 * ((i 0).val / 128) + 1 < 32) N_0.symm⟩, ?_, ?_⟩
  · exact (flush0_3 _).mpr (by show (2 * ((i 0).val / 128) + 1) % 2 = 1; omega)
  · rw [mem_outBlock]
    obtain ⟨-, -, -, -, -, -, e0, e1⟩ := idx_facts ⟨2 * ((i 0).val / 128) + 1, lt_of_lt_of_eq (by omega : 2 * ((i 0).val / 128) + 1 < 32) N_0.symm⟩
    have e0' : win0_3.index ⟨2 * ((i 0).val / 128) + 1, lt_of_lt_of_eq (by omega : 2 * ((i 0).val / 128) + 1 < 32) N_0.symm⟩ (0 : Fin 2) = (2 * ((i 0).val / 128) + 1) / 2 := e0
    intro a
    match a with
    | ⟨0, _⟩ => show win0_3.index _ (0 : Fin 2) * 128 ≤ (i 0).val ∧ (i 0).val < win0_3.index _ (0 : Fin 2) * 128 + 128; omega
    | ⟨1, _⟩ => show win0_3.index _ (1 : Fin 2) * 256 ≤ (i 1).val ∧ (i 1).val < win0_3.index _ (1 : Fin 2) * 256 + 256; omega

/-- THE OUTPUT ARRAY after the run: the chunked arrangement of the argument arrays. -/
theorem final (c : Dev nD) : (dats m 0 c).arrAt 3 cfg0.N = chunkedProject (xArr m c) (wArr m c) (bArr m c) :=
  (dats m 0 c).arrAt_eq_of_cover 3 _ (fun t hf => flushed_eq m c t hf) (covered)

/-- The kernel's run, read: the result array at the chunked arrangement of the arguments, the arguments unchanged. -/
theorem run : θ_run defs (onTc (τ := τ) (main (F := Ideal))) ⟨m, fun _ => 0, ρ⟩ fun r => ∀ c : Dev nD,
      r.2.mem ((c : Thread nD τ).loc main_v0) = chunkedProject (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KerValue

end
-- ==== Proof.Finite.lean ====
/-
  Finite inputs are real inputs.

  The precondition is the conjunction of three tests, one per argument: "every entry's absolute value is below the word
  +inf". A conjunction of bits that is 1 has both conjuncts 1; an all-reduction by "and" that is 1 met a 1 at every entry;
  and an extended real x with max x (-x) < +inf is neither infinity, so it is a real number. Only x and W are needed
  as reals: the bias is added last on both sides of the comparison and may be anything.
-/
import proofs.«153412_j75557064671667_1_alg».proof.Proof.Gen.Pre_finite_inputs
import Idealize.ShloMosaic.PureOps.Ideal.Laws
import Idealize.ShloMosaic.Lib.ValueIdx
import Idealize.ShloMosaic.Lib.ReduceAll
import Idealize.ShloMosaic.Lib.Affine

noncomputable section

namespace Cert.FiniteArgs

open Idealize.ShloMosaic Cert.Pre_finite_inputs

/-- The rank-0 shape has one index. -/
instance : Subsingleton S_.Idx := ⟨fun a b => funext fun d => d.elim0⟩

/-- The word 0x7F800000 denotes +inf. -/
theorem ofBits_inf : Ideal.ofBits .f32 0x7F800000#32 = (⊤ : EReal) := by
  simp [Ideal.ofBits, Ideal.ieee]

/-- An extended real whose absolute value compares below +inf is a real number. -/
theorem real_of_abs_lt_inf (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Under the precondition every entry of x and of W is a real number. -/
theorem reals_of_pre (x : FVec Ideal S2048x16x2048 .f32) (W : FVec Ideal S256x2048 .f32) (b : FVec Ideal S256 .f32)
    (h : Cert.Pre_finite_inputs.fn (F := Ideal) x W b = fun _ => 1#1) :
    (∀ i, ∃ r : ℝ, x i = (r : EReal)) ∧ (∀ i, ∃ r : ℝ, W i = (r : EReal)) := by
  have h0 := congrFun h ValueIdx.ix0
  dsimp only [Cert.Pre_finite_inputs.fn] at h0
  have h0' : IntOp.andi (IntOp.andi _ _) _ = 1#1 := h0
  obtain ⟨hxw, -⟩ := IntOp.andi_eq_one.1 h0'
  obtain ⟨hx, hW⟩ := IntOp.andi_eq_one.1 hxw
  exact ⟨fun i => real_of_abs_lt_inf (x i) (Host.reduce_andi_all _ _ _ _ _ hx i),
    fun i => real_of_abs_lt_inf (W i) (Host.reduce_andi_all _ _ _ _ _ hW i)⟩

end Cert.FiniteArgs

end
-- ==== Proof.lean ====
/-
  A graph layer that copies, mean-pools and projects: out = mean_k(x[:, k, :]) · Wᵀ + b, with
  x : [2048, 16, 2048], W : [256, 2048], b : [256], out : [2048, 256].

  The reference averages the sixteen replicas of a node (their sum from 0, divided by the word 16.0), contracts the
  feature axis against W and adds the bias. The kernel walks a 16 × 2 grid, node blocks of 128 by replica chunks of 8:
  at chunk 0 it zeroes an accumulator, at each chunk it adds (Σ_k chunk's replicas) · Wᵀ to it, and after chunk 1 it
  writes accumulator · (the word 0.0625) + b to the node block's rows of the output. On the extended reals the
  changes of float format inside the kernel are the identity, 0.0625 is exactly 1/16, and division by 16 is the
  product with 1/16; what remains is to move that factor across the sum over the features and to join the two
  replica chunks into the sixteen replicas, which is distributivity and needs x and W finite: the precondition.

  The modules: PoolLaw (both arrangements as functions of the arguments, and the law between them over the reals),
  RefMean (the reference's result is the "mean, then project" arrangement), KerPieces (what each of the body's two
  control cases leaves in the accumulator and the output block), KerPayload (the body's arithmetic at one entry),
  KerValue (the output array after the kernel's run is the chunked arrangement), Finite (finite inputs are reals).
  The frames are the generated ones; the idealization rewrote nothing, so `preserves` asks nothing.
-/
import proofs.«153412_j75557064671667_1_alg».proof.Defs
import proofs.«153412_j75557064671667_1_alg».proof.Proof.Gen.Kernel
import proofs.«153412_j75557064671667_1_alg».proof.Proof.Gen.Kernel.Skeleton
import proofs.«153412_j75557064671667_1_alg».proof.Proof.Gen.Kernel.Launch
import proofs.«153412_j75557064671667_1_alg».proof.Proof.Gen.Kernel.Points
import proofs.«153412_j75557064671667_1_alg».proof.Proof.Gen.Kernel.Frame
import proofs.«153412_j75557064671667_1_alg».proof.Proof.Gen.KernelIdeal
import proofs.«153412_j75557064671667_1_alg».proof.Proof.Gen.KernelIdeal.Skeleton
import proofs.«153412_j75557064671667_1_alg».proof.Proof.Gen.KernelIdeal.Launch
import proofs.«153412_j75557064671667_1_alg».proof.Proof.Gen.KernelIdeal.Points
import proofs.«153412_j75557064671667_1_alg».proof.Proof.Gen.KernelIdeal.Frame
import proofs.«153412_j75557064671667_1_alg».proof.Proof.Gen.KernelIdeal.Value
import proofs.«153412_j75557064671667_1_alg».proof.Proof.Gen.ReferenceIdeal
import proofs.«153412_j75557064671667_1_alg».proof.Proof.Gen.ReferenceIdeal.Run
import proofs.«153412_j75557064671667_1_alg».proof.Proof.Gen.ReferenceIdeal.Read
import proofs.«153412_j75557064671667_1_alg».proof.Proof.Gen.Pre_finite_inputs
import proofs.«153412_j75557064671667_1_alg».proof.Proof.PoolLaw
import proofs.«153412_j75557064671667_1_alg».proof.Proof.RefMean
import proofs.«153412_j75557064671667_1_alg».proof.Proof.KerValue
import proofs.«153412_j75557064671667_1_alg».proof.Proof.Finite
import Idealize.ShloMosaic.Adequacy
import Idealize.ShloMosaic.Init

noncomputable section

namespace Cert.Proof

open Idealize.ShloMosaic Idealize.ShloMosaic.TcCoe Idealize.SL.Sem

/-- The three programs run, fault nowhere and leave their arguments as they were. The reference has no kernel: its
    frame is its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at "mean over the replicas, project, add the bias" of the
    arguments: the kernel's chunked arrangement is that on finite x and W, and the reference computes it as written. -/
theorem algebraic : Cert.algebraic_KernelIdeal_ReferenceIdeal := by
  intro m ρ m' ρ' hpre hagree
  refine ⟨fun c => Cert.PoolLaw.meanProject (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KerValue.run m ρ)
    obtain ⟨hx, hW⟩ := Cert.FiniteArgs.reals_of_pre _ _ _ (hpre c)
    exact Cert.PoolLaw.chunkedProject_eq _ _ _ hx hW
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v6_eq _ _ _).trans (Cert.RefMean.stage_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
